-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2x1000 : Shape := ⟨3, ![65536, 2, 1000]⟩
abbrev S_ : Shape := ⟨0, ![]⟩

class Facts : Prop where
  bcast_S_S65536x2x1000 : S_.BroadcastsInDim S65536x2x1000 (![] : Fin 0 → Fin S65536x2x1000.rank)
  reducesTo_S65536x2x1000_S_d0_1_2 : S65536x2x1000.ReducesTo [0, 1, 2] S_
  h_S_ : 0 < S_.numel

variable [Facts]

def fn {F : FTy → Type} [FloatOps F] (main_arg0 : FVec F S65536x2x1000 .f32) : IVec S_ 1 :=
  let main_v0 : FVec F S65536x2x1000 .f32 := Host.absf main_arg0
  let main_cst : FVec F S_ .f32 := constant S_ .f32 0x7F800000#32
  let main_v1 : FVec F S65536x2x1000 .f32 := broadcastInDim S65536x2x1000 ![] bcast_S_S65536x2x1000 main_cst
  let main_v2 : IVec S65536x2x1000 1 := cmpf .olt main_v0 main_v1
  let main_c : IVec S_ 1 := constantI S_ 1 1#1
  let main_v3 : IVec S_ 1 := (fun x v => Host.reduce IntOp.andi x v reducesTo_S65536x2x1000_S_d0_1_2 h_S_) main_v2 main_c
  let main_cst_0 : FVec F S_ .f32 := constant S_ .f32 0x00000000#32
  let main_v4 : FVec F S65536x2x1000 .f32 := broadcastInDim S65536x2x1000 ![] bcast_S_S65536x2x1000 main_cst_0
  let main_v5 : IVec S65536x2x1000 1 := cmpf .oge main_arg0 main_v4
  let main_c_1 : IVec S_ 1 := constantI S_ 1 1#1
  let main_v6 : IVec S_ 1 := (fun x v => Host.reduce IntOp.andi x v reducesTo_S65536x2x1000_S_d0_1_2 h_S_) main_v5 main_c_1
  let main_v7 : IVec S_ 1 := andi main_v3 main_v6
  main_v7
-- ==== Kernel.lean ====
abbrev S65536x2x1000 : Shape := ⟨3, ![65536, 2, 1000]⟩
abbrev S65536x1000 : Shape := ⟨2, ![65536, 1000]⟩
abbrev S256x2x1000 : Shape := ⟨3, ![256, 2, 1000]⟩
abbrev S256x1000 : Shape := ⟨2, ![256, 1000]⟩
abbrev S256x1x1000 : Shape := ⟨3, ![256, 1, 1000]⟩
abbrev S256 : Shape := ⟨1, ![256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S65536x2x1000, .f32⟩
  | .hbm, ⟨1, _⟩ => ⟨S65536x1000, .f32⟩
  | .local _ .vmem, ⟨0, _⟩ => ⟨S256x2x1000, .f32⟩
  | .local _ .vmem, ⟨1, _⟩ => ⟨S256x2x1000, .f32⟩
  | .local _ .vmem, ⟨2, _⟩ => ⟨S256x1000, .f32⟩
  | .local _ .vmem, ⟨3, _⟩ => ⟨S256x1000, .f32⟩
  | _, _ => ⟨S65536x2x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x2x1000_S256x1x1000_0_0_0 : ∀ a, (![0, 0, 0] : Fin 3 → Nat) a + S256x1x1000.size a ≤ S256x2x1000.size a
  h_S256x1x1000 : 0 < S256x1x1000.numel
  shapeCasts_S256x1x1000_S256x1000 : S256x1x1000.ShapeCasts S256x1000
  inb_S256x2x1000_S256x1x1000_0_1_0 : ∀ a, (![0, 1, 0] : Fin 3 → Nat) a + S256x1x1000.size a ≤ S256x2x1000.size a
  reduces_S256x1000_S256 : S256x1000.Reduces [1] S256
  shapeCasts_S256_S256x1 : S256.ShapeCasts S256x1
  broadcasts_S256x1_S256x1000 : S256x1.Broadcasts S256x1000
  inb_S256x1000_S256x1000_0_0 : ∀ a, (![0, 0] : Fin 2 → Nat) a + S256x1000.size a ≤ S256x1000.size a
  h_S256x1000 : 0 < S256x1000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2x1000.size a ≤ S65536x2x1000.size a
  hwx0_0 : ∀ i : grid0.Coords, EltTy.bits .f32 = 32 ∨ (Rect.block (s := S65536x2x1000) S256x2x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1000.size a ≤ S65536x1000.size a
  hwx0_1 : ∀ i : grid0.Coords, EltTy.bits .f32 = 32 ∨ (Rect.block (s := S65536x1000) S256x1000.size (cc0_transform_1 i) (hinb0_1 i)).WholeWords (EltTy.packing .f32)

variable [Facts₀]

abbrev win0_0 : Pipeline.Window sig grid0 :=
  Pipeline.Window.ofSpec (Memref.whole main_arg0) S256x2x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x2x1000 : Shape := ⟨3, ![65536, 2, 1000]⟩
abbrev S65536x1x1000 : Shape := ⟨3, ![65536, 1, 1000]⟩
abbrev S65536x1000 : Shape := ⟨2, ![65536, 1000]⟩
abbrev S_ : Shape := ⟨0, ![]⟩
abbrev S65536 : Shape := ⟨1, ![65536]⟩
abbrev S65536x1 : Shape := ⟨2, ![65536, 1]⟩

abbrev nBuf : Space → Nat
  | .hbm => 79
  | .vmem => 0
  | .smem => 0
  | _ => 0

abbrev bufTy : (tb : Table) → Fin (tcTables nBuf tb) → BufTy
  | .hbm, ⟨0, _⟩ => ⟨S65536x2x1000, .f32⟩
  | .hbm, ⟨1, _⟩ => ⟨S65536x1x1000, .f32⟩
  | .hbm, ⟨2, _⟩ => ⟨S65536x1000, .f32⟩
  | .hbm, ⟨3, _⟩ => ⟨S65536x1x1000, .f32⟩
  | .hbm, ⟨4, _⟩ => ⟨S65536x1000, .f32⟩
  | .hbm, ⟨5, _⟩ => ⟨S_, .f32⟩
  | .hbm, ⟨6, _⟩ => ⟨S65536x1000, .f32⟩
  | .hbm, ⟨7, _⟩ => ⟨S65536x1000, .f32⟩
  | .hbm, ⟨8, _⟩ => ⟨S_, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1000, .f32⟩
  | .hbm, ⟨19, _⟩ => ⟨S65536x1000, .f32⟩
  | .hbm, ⟨20, _⟩ => ⟨S65536x1000, .f32⟩
  | .hbm, ⟨21, _⟩ => ⟨S65536x1000, .f32⟩
  | .hbm, ⟨22, _⟩ => ⟨S_, .f32⟩
  | .hbm, ⟨23, _⟩ => ⟨S65536x1000, .f32⟩
  | .hbm, ⟨24, _⟩ => ⟨S65536x1000, .f32⟩
  | .hbm, ⟨25, _⟩ => ⟨S65536x1000, .f32⟩
  | .hbm, ⟨26, _⟩ => ⟨S65536x1000, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S_, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536x1000, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S_, .f32⟩
  | .hbm, ⟨43, _⟩ => ⟨S65536, .f32⟩
  | .hbm, ⟨44, _⟩ => ⟨S65536, .f32⟩
  | .hbm, ⟨45, _⟩ => ⟨S65536x1, .f32⟩
  | .hbm, ⟨46, _⟩ => ⟨S65536x1000, .f32⟩
  | .hbm, ⟨47, _⟩ => ⟨S65536x1000, .f32⟩
  | .hbm, ⟨48, _⟩ => ⟨S65536x1000, .f32⟩
  | .hbm, ⟨49, _⟩ => ⟨S65536x1000, .f32⟩
  | .hbm, ⟨50, _⟩ => ⟨S65536x1000, .f32⟩
  | .hbm, ⟨51, _⟩ => ⟨S65536x1000, .f32⟩
  | .hbm, ⟨52, _⟩ => ⟨S65536x1000, .f32⟩
  | .hbm, ⟨53, _⟩ => ⟨S65536x1000, .f32⟩
  | .hbm, ⟨54, _⟩ => ⟨S65536x1000, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1000, .f32⟩
  | .hbm, ⟨61, _⟩ => ⟨S65536x1000, .f32⟩
  | .hbm, ⟨62, _⟩ => ⟨S_, .f32⟩
  | .hbm, ⟨63, _⟩ => ⟨S65536x1000, .f32⟩
  | .hbm, ⟨64, _⟩ => ⟨S65536x1000, .f32⟩
  | .hbm, ⟨65, _⟩ => ⟨S_, .f32⟩
  | .hbm, ⟨66, _⟩ => ⟨S65536, .f32⟩
  | .hbm, ⟨67, _⟩ => ⟨S_, .f32⟩
  | .hbm, ⟨68, _⟩ => ⟨S65536, .f32⟩
  | .hbm, ⟨69, _⟩ => ⟨S65536, .f32⟩
  | .hbm, ⟨70, _⟩ => ⟨S65536x1, .f32⟩
  | .hbm, ⟨71, _⟩ => ⟨S65536x1000, .f32⟩
  | .hbm, ⟨72, _⟩ => ⟨S65536x1000, .f32⟩
  | .hbm, ⟨73, _⟩ => ⟨S65536x1000, .f32⟩
  | .hbm, ⟨74, _⟩ => ⟨S_, .f32⟩
  | .hbm, ⟨75, _⟩ => ⟨S65536, .f32⟩
  | .hbm, ⟨76, _⟩ => ⟨S65536x1, .f32⟩
  | .hbm, ⟨77, _⟩ => ⟨S65536x1000, .f32⟩
  | .hbm, ⟨78, _⟩ => ⟨S65536x1000, .f32⟩
  | _, _ => ⟨S65536x2x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_cst_8 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_9 : Ref sig .tc := ⟨.hbm, 39, rfl⟩
abbrev main_v28 : Ref sig .tc := ⟨.hbm, 40, rfl⟩
abbrev main_v29 : Ref sig .tc := ⟨.hbm, 41, rfl⟩
abbrev main_cst_10 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_11 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_12 : Ref sig .tc := ⟨.hbm, 62, rfl⟩
abbrev main_v48 : Ref sig .tc := ⟨.hbm, 63, rfl⟩
abbrev main_v49 : Ref sig .tc := ⟨.hbm, 64, rfl⟩
abbrev main_cst_13 : Ref sig .tc := ⟨.hbm, 65, rfl⟩
abbrev main_v50 : Ref sig .tc := ⟨.hbm, 66, rfl⟩
abbrev main_cst_14 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_15 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  slices_S65536x2x1000_S65536x1x1000_0_0_0 : S65536x2x1000.Slices ![0, 0, 0] S65536x1x1000
  shapeCasts_S65536x1x1000_S65536x1000 : S65536x1x1000.ShapeCasts S65536x1000
  slices_S65536x2x1000_S65536x1x1000_0_1_0 : S65536x2x1000.Slices ![0, 1, 0] S65536x1x1000
  bcast_S_S65536x1000 : S_.BroadcastsInDim S65536x1000 (![] : Fin 0 → Fin S65536x1000.rank)
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S_S65536x1 : S_.BroadcastsInDim S65536x1 (![] : Fin 0 → Fin S65536x1.rank)
  bcast_S_S65536 : S_.BroadcastsInDim S65536 (![] : Fin 0 → Fin S65536.rank)

variable [Facts₀]

class Facts : Prop extends Facts₀ where

variable [Facts]
-- ==== Proof.EvidenceRow.lean ====
/-
  Two evidence rows combined, at the extended reals.

  An evidence row `e` (one entry per class) gives the Dirichlet parameters `e j + 1`, their sum the strength `S`,
  the belief masses `((e j + 1) - 1) / S` and the uncertainty mass `c / S`. Two rows `p`, `q` are combined
  through the mixed term `b_p b_q + b_p u_q + b_q u_p`. One program scales it by `c / (u_p u_q)`; the other first
  divides both the mixed term and `u_p u_q` by `1 - K`, `K` the conflict mass `(Σ b_p)(Σ b_q) - Σ b_p b_q`, and then
  multiplies the first quotient by `c` over the second. The factor `1 - K` cancels when it is not zero, and for
  non-negative evidence it is positive: every belief mass is non-negative and each row's masses sum to less
  than one, so `K ≤ (Σ b_p)(Σ b_q) < 1`. Both programs then take the same softmax of the result.
-/
import Idealize.ShloMosaic.PureOps.Ideal
import Mathlib.Tactic.FieldSimp
import Mathlib.Tactic.Ring
import Mathlib.Tactic.Linarith
import Mathlib.Tactic.Positivity

noncomputable section

namespace Cert.Evidence

open Idealize.ShloMosaic

variable {N : ℕ}

/-! ## The row functions on the extended reals, as the programs spell them -/

/-- The strength of an evidence row: the sum of its Dirichlet parameters. -/
def strength (e : Fin N → EReal) : EReal := ∑ j, (e j + 1)

/-- The belief mass of class `j`. -/
def belief (e : Fin N → EReal) (j : Fin N) : EReal := Ideal.div ((e j + 1) - 1) (strength e)

/-- The uncertainty mass. -/
def unc (c : EReal) (e : Fin N → EReal) : EReal := Ideal.div c (strength e)

/-- The mixed term of two rows at class `j`. -/
def mix (c : EReal) (p q : Fin N → EReal) (j : Fin N) : EReal :=
  (belief p j * belief q j + belief p j * unc c q) + belief q j * unc c p

/-- The conflict mass of two rows. -/
def conflict (p q : Fin N → EReal) : EReal :=
  (∑ j, belief p j) * (∑ j, belief q j) - ∑ j, belief p j * belief q j

/-- The combined parameters with the normalisation cancelled beforehand. -/
def alphaFused (c : EReal) (a b : Fin N → EReal) (j : Fin N) : EReal :=
  Ideal.div c (unc c a * unc c b) * mix c a b j + 1

/-- The combined parameters with both quotients by `1 - K` formed, the rows in the other order. -/
def alphaDS (c : EReal) (a b : Fin N → EReal) (j : Fin N) : EReal :=
  Ideal.div (mix c b a j) (1 - conflict b a) * Ideal.div c (Ideal.div (unc c b * unc c a) (1 - conflict b a)) + 1

/-- A row's maximum, from `-∞`. -/
def rowMax (α : Fin N → EReal) : EReal := (Finset.univ : Finset (Fin N)).fold max ⊥ α

/-- The softmax of a row. -/
def softmax (α : Fin N → EReal) (j : Fin N) : EReal :=
  Ideal.div (Ideal.exp (α j - rowMax α)) (∑ k, Ideal.exp (α k - rowMax α))

/-! ## Real values pass through the operations -/

theorem coe_sum {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem div_coe_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-! ## The same functions on the reals -/

def rS (e : Fin N → ℝ) : ℝ := ∑ j, (e j + 1)
def rBelief (e : Fin N → ℝ) (j : Fin N) : ℝ := ((e j + 1) - 1) / rS e
def rUnc (c : ℝ) (e : Fin N → ℝ) : ℝ := c / rS e
def rMix (c : ℝ) (p q : Fin N → ℝ) (j : Fin N) : ℝ :=
  (rBelief p j * rBelief q j + rBelief p j * rUnc c q) + rBelief q j * rUnc c p
def rConflict (p q : Fin N → ℝ) : ℝ :=
  (∑ j, rBelief p j) * (∑ j, rBelief q j) - ∑ j, rBelief p j * rBelief q j

theorem rMix_comm (c : ℝ) (p q : Fin N → ℝ) (j : Fin N) : rMix c p q j = rMix c q p j := by
  unfold rMix; ring

/-- With at least one class and non-negative evidence the strength is positive. -/
theorem rS_pos (hN : 0 < N) (e : Fin N → ℝ) (he : ∀ j, 0 ≤ e j) : 0 < rS e := by
  haveI : Nonempty (Fin N) := ⟨⟨0, hN⟩⟩
  exact Finset.sum_pos (fun j _ => by have := he j; linarith) Finset.univ_nonempty

theorem rBelief_nonneg (hN : 0 < N) (e : Fin N → ℝ) (he : ∀ j, 0 ≤ e j) (j : Fin N) : 0 ≤ rBelief e j :=
  div_nonneg (by have := he j; linarith) (rS_pos hN e he).le

/-- A row's belief masses sum to less than one: their numerators sum to less than the strength. -/
theorem sum_rBelief_lt_one (hN : 0 < N) (e : Fin N → ℝ) (he : ∀ j, 0 ≤ e j) : ∑ j, rBelief e j < 1 := by
  haveI : Nonempty (Fin N) := ⟨⟨0, hN⟩⟩
  unfold rBelief
  rw [← Finset.sum_div, div_lt_one (rS_pos hN e he)]
  exact Finset.sum_lt_sum_of_nonempty Finset.univ_nonempty (fun j _ => by linarith)

/-- So the conflict mass is below one. -/
theorem rConflict_lt_one (hN : 0 < N) (p q : Fin N → ℝ) (hp : ∀ j, 0 ≤ p j) (hq : ∀ j, 0 ≤ q j) : rConflict p q < 1 := by
  have h1 := sum_rBelief_lt_one hN p hp
  have h2 := sum_rBelief_lt_one hN q hq
  have n1 : 0 ≤ ∑ j, rBelief p j := Finset.sum_nonneg fun j _ => rBelief_nonneg hN p hp j
  have n2 : 0 ≤ ∑ j, rBelief q j := Finset.sum_nonneg fun j _ => rBelief_nonneg hN q hq j
  have n3 : 0 ≤ ∑ j, rBelief p j * rBelief q j :=
    Finset.sum_nonneg fun j _ => mul_nonneg (rBelief_nonneg hN p hp j) (rBelief_nonneg hN q hq j)
  unfold rConflict
  nlinarith

/-- The cancellation, on the reals. -/
theorem cancel (c uA uB mx den : ℝ) (hc : c ≠ 0) (huA : uA ≠ 0) (huB : uB ≠ 0) (hden : den ≠ 0) :
    mx / den * (c / ((uB * uA) / den)) + 1 = c / (uA * uB) * mx + 1 := by
  field_simp

/-! ## Real rows through the extended-real functions -/

section Coe

variable (c : ℝ) (e p q : Fin N → ℝ)

theorem strength_coe : strength (fun j => (e j : EReal)) = (rS e : EReal) := by
  unfold strength rS
  rw [← coe_sum]
  exact Finset.sum_congr rfl fun j _ => by rw [← EReal.coe_one, ← EReal.coe_add]

theorem belief_coe (h : rS e ≠ 0) (j : Fin N) : belief (fun j => (e j : EReal)) j = (rBelief e j : EReal) := by
  unfold belief rBelief
  rw [strength_coe, ← EReal.coe_one, ← EReal.coe_add, ← EReal.coe_sub, div_coe_coe _ _ h]

theorem unc_coe (h : rS e ≠ 0) : unc (c : EReal) (fun j => (e j : EReal)) = (rUnc c e : EReal) := by
  unfold unc rUnc
  rw [strength_coe, div_coe_coe _ _ h]

theorem mix_coe (hp : rS p ≠ 0) (hq : rS q ≠ 0) (j : Fin N) :
    mix (c : EReal) (fun j => (p j : EReal)) (fun j => (q j : EReal)) j = (rMix c p q j : EReal) := by
  unfold mix rMix
  rw [belief_coe p hp, belief_coe q hq, unc_coe c p hp, unc_coe c q hq]
  simp only [← EReal.coe_mul, ← EReal.coe_add]

theorem conflict_coe (hp : rS p ≠ 0) (hq : rS q ≠ 0) :
    conflict (fun j => (p j : EReal)) (fun j => (q j : EReal)) = (rConflict p q : EReal) := by
  unfold conflict rConflict
  simp only [belief_coe p hp, belief_coe q hq, ← EReal.coe_mul, coe_sum, ← EReal.coe_sub]

end Coe

/-! ## The two combinations agree on non-negative finite evidence -/

theorem alphaDS_eq_alphaFused_coe (hN : 0 < N) (c : ℝ) (hc : 0 < c) (a b : Fin N → ℝ)
    (ha : ∀ j, 0 ≤ a j) (hb : ∀ j, 0 ≤ b j) (j : Fin N) :
    alphaDS (c : EReal) (fun j => (a j : EReal)) (fun j => (b j : EReal)) j
      = alphaFused (c : EReal) (fun j => (a j : EReal)) (fun j => (b j : EReal)) j := by
  have sa := rS_pos hN a ha
  have sb := rS_pos hN b hb
  have ua : rUnc c a ≠ 0 := (div_pos hc sa).ne'
  have ub : rUnc c b ≠ 0 := (div_pos hc sb).ne'
  have hden : (1 - rConflict b a) ≠ 0 := by have := rConflict_lt_one hN b a hb ha; linarith
  have hq : (rUnc c b * rUnc c a) / (1 - rConflict b a) ≠ 0 := div_ne_zero (mul_ne_zero ub ua) hden
  unfold alphaDS alphaFused
  rw [mix_coe c b a sb.ne' sa.ne', mix_coe c a b sa.ne' sb.ne', conflict_coe b a sb.ne' sa.ne',
    unc_coe c a sa.ne', unc_coe c b sb.ne', ← EReal.coe_one, ← EReal.coe_sub, ← EReal.coe_mul, ← EReal.coe_mul,
    div_coe_coe _ _ hden, div_coe_coe _ _ hden, div_coe_coe _ _ hq, div_coe_coe _ _ (mul_ne_zero ua ub),
    ← EReal.coe_mul, ← EReal.coe_mul, ← EReal.coe_add, ← EReal.coe_add, rMix_comm c b a j,
    cancel c (rUnc c a) (rUnc c b) (rMix c a b j) (1 - rConflict b a) hc.ne' ua ub hden]

/-- The same for rows of extended reals known to be finite and non-negative. -/
theorem alphaDS_eq_alphaFused (hN : 0 < N) (c : ℝ) (hc : 0 < c) (A B : Fin N → EReal)
    (hA : ∀ j, ∃ r : ℝ, 0 ≤ r ∧ A j = (r : EReal)) (hB : ∀ j, ∃ r : ℝ, 0 ≤ r ∧ B j = (r : EReal)) :
    alphaDS (c : EReal) A B = alphaFused (c : EReal) A B := by
  choose a ha ea using hA
  choose b hb eb using hB
  obtain rfl : A = fun j => (a j : EReal) := funext ea
  obtain rfl : B = fun j => (b j : EReal) := funext eb
  exact funext fun j => alphaDS_eq_alphaFused_coe hN c hc a b ha hb j

end Cert.Evidence

end
-- ==== Proof.EvidenceSpec.lean ====
/-
  The result as one function of the evidence array.

  The argument is [65536, 2, 1000]: for each of 65536 samples, two rows of 1000 class evidences. The result at
  (n, j) is the softmax, at class j, of the combined Dirichlet parameters of sample n's two rows. Stated twice,
  once with each spelling of the combination; they are one function when every entry is a non-negative real.
-/
import proofs.«423927_j9543417332439_3_alg».proof.Proof.EvidenceRow
import Idealize.ShloMosaic.Lib.ValueIdx

noncomputable section

namespace Cert.Evidence

open Idealize.ShloMosaic Idealize.ShloMosaic.ValueIdx

/-- The number of classes, as an extended real. -/
abbrev classes : EReal := ((1000 : ℝ) : EReal)

/-- Sample n's row of evidence slice s. -/
def slab (x : (⟨3, ![65536, 2, 1000]⟩ : Shape).Idx → EReal) (s : Fin 2) (n : Fin 65536) : Fin 1000 → EReal :=
  fun k => x (ix3 n s k)

/-- The result with the normalisation cancelled beforehand. -/
def fusedOut (x : (⟨3, ![65536, 2, 1000]⟩ : Shape).Idx → EReal) : (⟨2, ![65536, 1000]⟩ : Shape).Idx → EReal :=
  fun i => softmax (alphaFused classes (slab x 0 (i 0)) (slab x 1 (i 0))) (i 1)

/-- The result with both quotients by one minus the conflict mass formed. -/
def dsOut (x : (⟨3, ![65536, 2, 1000]⟩ : Shape).Idx → EReal) : (⟨2, ![65536, 1000]⟩ : Shape).Idx → EReal :=
  fun i => softmax (alphaDS classes (slab x 0 (i 0)) (slab x 1 (i 0))) (i 1)

/-- On non-negative finite evidence the two are one function. -/
theorem dsOut_eq_fusedOut (x : (⟨3, ![65536, 2, 1000]⟩ : Shape).Idx → EReal)
    (hx : ∀ i, ∃ r : ℝ, 0 ≤ r ∧ x i = (r : EReal)) : dsOut x = fusedOut x := by
  funext i
  exact congrArg (fun α => softmax α (i 1))
    (alphaDS_eq_alphaFused (by norm_num) 1000 (by norm_num) (slab x 0 (i 0)) (slab x 1 (i 0))
      (fun k => hx _) (fun k => hx _))

end Cert.Evidence

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KernelBlock.lean ====
/-
  What the kernel's body computes for one block, entry by entry.

  The body loads the two evidence slices of a block of 256 samples as [256, 1, 1000] vectors. At (p, j) its
  stored value is the softmax, at class j, of the fused combination of row p of the two loads: the row sums
  and the row maximum are reductions over the columns read at row p, and each row statistic, kept as a column
  and broadcast back, is that statistic at every column.
-/
import proofs.«423927_j9543417332439_3_alg».proof.Proof.Gen.KernelIdeal.Skeleton
import proofs.«423927_j9543417332439_3_alg».proof.Proof.EvidenceSpec
import proofs.«423927_j9543417332439_3_alg».proof.Proof.LibRowRead
import proofs.«423927_j9543417332439_3_alg».proof.Proof.LibColumn

noncomputable section

namespace Cert.KernelIdeal.Block

open Cert.KernelIdeal Cert.KernelIdeal.Gen Idealize.ShloMosaic Idealize.ShloMosaic.ValueIdx
open Cert.Evidence Cert.RowRead Idealize.ShloMosaic.Column

/-- The last stage: of a vector whose row p is β, the exponentials over their row sum, at (p, j). -/
theorem exp_over_sum (Z : FVec Ideal S256x1000 .f32) (β : Fin 1000 → EReal) (p : Fin 256)
    (hZ : ∀ k, Z (ix2 p k) = β k) (j : Fin 1000) :
    k0_pay1 Z (ix2 p j) = Ideal.div (Ideal.exp (β j)) (∑ k, Ideal.exp (β k)) := by
  unfold k0_pay1
  dsimp only
  rw [divf_apply, exp_apply, keepdims_apply, rowSum_f32, hZ]
  exact congrArg (Ideal.div _) (Finset.sum_congr rfl fun k _ => by rw [exp_apply, hZ])

/-- A vector minus its row maximum broadcast back: at (p, k), row p's entry minus row p's maximum. -/
theorem sub_rowMax (V : FVec Ideal S256x1000 .f32) (α : Fin 1000 → EReal) (p : Fin 256)
    (hV : ∀ k, V (ix2 p k) = α k) (k : Fin 1000) :
    subf V (broadcastTo S256x1000 (shapeCast S256x1 (multiReduction .maximumf [1] S256 V 0xFF800000#32
      reduces_S256x1000_S256 (.inl rfl) rfl) shapeCasts_S256_S256x1) broadcasts_S256x1_S256x1000) (ix2 p k)
      = α k - rowMax α := by
  rw [subf_apply, keepdims_apply, rowMax_f32, hV]
  unfold rowMax
  exact congrArg (fun f => α k - Finset.fold max ⊥ f Finset.univ) (funext hV)

/-- The body's vector before the maximum is taken: row p of it is the fused combination of row p of the loads. -/
theorem fused_vector (P0 P1 : Vec Ideal S256x1x1000 .f32) (p : Fin 256) :
    ∃ W : FVec Ideal S256x1000 .f32,
      k0_pay2 P0 P1 = subf W (broadcastTo S256x1000 (shapeCast S256x1 (multiReduction .maximumf [1] S256 W 0xFF800000#32
        reduces_S256x1000_S256 (.inl rfl) rfl) shapeCasts_S256_S256x1) broadcasts_S256x1_S256x1000)
      ∧ ∀ k : Fin 1000, W (ix2 p k)
          = alphaFused classes (fun k => P0 (ix3 p (0 : Fin 1) k)) (fun k => P1 (ix3 p (0 : Fin 1) k)) k := by
  refine ⟨_, rfl, fun k => ?_⟩
  simp only [addf_apply, mulf_apply, subf_apply, divf_apply, broadcast_apply, keepdims_apply, broadcastTo_a1_ab_apply,
    shapeCast_a_a1_apply, squeeze_apply, Ideal.ofBits_def, word_one, word_thousand]
  rw [rowSum_f32, rowSum_f32]
  simp only [addf_apply, broadcast_apply, squeeze_apply, Ideal.ofBits_def, word_one]
  rfl

/-- The body's stored value at (p, j): the softmax of the fused parameters of row p. -/
theorem payload_apply (P0 P1 : Vec Ideal S256x1x1000 .f32) (p : Fin 256) (j : Fin 1000) :
    k0_pay1 (k0_pay2 P0 P1) (ix2 p j)
      = softmax (alphaFused classes (fun k => P0 (ix3 p (0 : Fin 1) k)) (fun k => P1 (ix3 p (0 : Fin 1) k))) j := by
  obtain ⟨W, hW, hα⟩ := fused_vector P0 P1 p
  rw [hW]
  exact exp_over_sum _ _ p (sub_rowMax W _ p hα) j

end Cert.KernelIdeal.Block

end
-- ==== Proof.KernelWhole.lean ====
/-
  The kernel's result array as one function of the evidence array.

  The grid has 256 points; point t stages samples 256·t … 256·t + 255 (all of their two evidence rows) and writes
  back rows 256·t … 256·t + 255 of the result. Row p of the block at point t is sample 256·t + p, so what the
  body leaves there is the softmax of that sample's fused parameters; the 256 blocks tile the 65536 rows, so the
  array ends holding that function everywhere.
-/
import proofs.«423927_j9543417332439_3_alg».proof.Proof.Gen.KernelIdeal.Value
import proofs.«423927_j9543417332439_3_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Evidence

variable (m : (ℓ : Loc nD τ sig) → Buf (Elt Ideal) ℓ) (ρ : Dev nD → PrngReg)

theorem out_zero : (![0, 0] : Fin 2 → Nat) = fun _ => 0 := funext fun a => by fin_cases a <;> rfl

/-- The printed index maps over the grid: both windows' block index on the sample axis is the point's position,
    and zero on the other axes. -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- The sample that row p of the block at point t holds. -/
def sample (t : Fin cfg0.N) (p : Fin 256) : Fin 65536 :=
  ⟨t.val * 256 + p.val, by have := t.isLt; have h : cfg0.N = 256 := N_0; have := p.isLt; omega⟩

/-- The evidence block at point t, at its literal type. -/
abbrev xblk (c : Dev nD) (t : Fin cfg0.N) : Vec Ideal S256x2x1000 .f32 := iblk m c 0 t

/-- The first load of the block, at (p, 0, k): evidence slice 0 of the block's sample p, class k. -/
theorem load0_apply (c : Dev nD) (t : Fin cfg0.N) (p : Fin 256) (k : Fin 1000) :
    View.ld (xblk m c t) r0_0 (ix3 p (0 : Fin 1) k) = V m c main_arg0 (ix3 (sample t p) (0 : Fin 2) k) := by
  obtain ⟨e0, e1, e2, -, -⟩ := index_facts t
  show V m c main_arg0 (((cfg0.win 0).blk t).view.emb (r0_0.idx (ix3 p (0 : Fin 1) k))) = _
  refine congrArg (V m c main_arg0) (funext fun a => Fin.ext ?_)
  match a with
  | ⟨0, _⟩ => show win0_0.index t (0 : Fin 3) * 256 + 1 * (0 + 1 * p.val) = t.val * 256 + p.val; rw [e0]; omega
  | ⟨1, _⟩ => show win0_0.index t (1 : Fin 3) * 2 + 1 * (0 + 1 * 0) = 0; rw [e1]
  | ⟨2, _⟩ => show win0_0.index t (2 : Fin 3) * 1000 + 1 * (0 + 1 * k.val) = k.val; rw [e2]; omega

/-- The second load, through the rectangle at offset 1 on the middle axis: evidence slice 1. -/
theorem load1_apply (c : Dev nD) (t : Fin cfg0.N) (p : Fin 256) (k : Fin 1000) :
    View.ld (xblk m c t) r0_1 (ix3 p (0 : Fin 1) k) = V m c main_arg0 (ix3 (sample t p) (1 : Fin 2) k) := by
  obtain ⟨e0, e1, e2, -, -⟩ := index_facts t
  show V m c main_arg0 (((cfg0.win 0).blk t).view.emb (r0_1.idx (ix3 p (0 : Fin 1) k))) = _
  refine congrArg (V m c main_arg0) (funext fun a => Fin.ext ?_)
  match a with
  | ⟨0, _⟩ => show win0_0.index t (0 : Fin 3) * 256 + 1 * (0 + 1 * p.val) = t.val * 256 + p.val; rw [e0]; omega
  | ⟨1, _⟩ => show win0_0.index t (1 : Fin 3) * 2 + 1 * (1 + 1 * 0) = 1; rw [e1]
  | ⟨2, _⟩ => show win0_0.index t (2 : Fin 3) * 1000 + 1 * (0 + 1 * k.val) = k.val; rw [e2]; omega

/-- Entry (p, j) of the result block at point t is entry (sample, j) of the result array. -/
theorem out_idx (t : Fin cfg0.N) (p : Fin 256) (j : Fin 1000) :
    ((cfg0.win 1).blk t).view.emb (ix2 p j) = ix2 (sample t p) j := by
  obtain ⟨-, -, -, e3, e4⟩ := index_facts t
  refine funext fun a => Fin.ext ?_
  match a with
  | ⟨0, _⟩ => show win0_1.index t (0 : Fin 2) * 256 + 1 * p.val = t.val * 256 + p.val; rw [e3]; omega
  | ⟨1, _⟩ => show win0_1.index t (1 : Fin 2) * 1000 + 1 * j.val = j.val; rw [e4]; omega

/-- What point t writes back is block t of the fused result of the evidence array as the region finds it. -/
theorem flushed_eq (c : Dev nD) (t : Fin cfg0.N) :
    (dats m 0 c).flushed 1 t = ((cfg0.win 1).blk t).view.read (Elt Ideal) (fusedOut (V m c main_arg0)) := by
  rw [Value.flushed1]
  unfold out0_1
  rw [View.canon_unit_zero out_zero]
  funext y
  obtain ⟨p, j, rfl⟩ : ∃ (p : Fin 256) (j : Fin 1000), y = ix2 p j := ⟨y 0, y 1, eq_ix2 y⟩
  show k0_pay1 (k0_pay2 (View.ld (xblk m c t) r0_0) (View.ld (xblk m c t) r0_1)) (ix2 p j)
    = fusedOut (V m c main_arg0) (((cfg0.win 1).blk t).view.emb (ix2 p j))
  rw [Block.payload_apply (View.ld (xblk m c t) r0_0) (View.ld (xblk m c t) r0_1) p j, out_idx t p j]
  show _ = softmax (alphaFused classes (slab (V m c main_arg0) 0 (sample t p)) (slab (V m c main_arg0) 1 (sample t p))) j
  have h0 : (fun k => View.ld (xblk m c t) r0_0 (ix3 p (0 : Fin 1) k)) = slab (V m c main_arg0) 0 (sample t p) :=
    funext fun k => load0_apply m c t p k
  have h1 : (fun k => View.ld (xblk m c t) r0_1 (ix3 p (0 : Fin 1) k)) = slab (V m c main_arg0) 1 (sample t p) :=
    funext fun k => load1_apply m c t p k
  rw [h0, h1]

/-- An index of the result array is in point t's block iff each coordinate is in the block's range on its axis. -/
theorem mem_blk (t : Fin cfg0.N) (i : S65536x1000.Idx) :
    i ∈ ((cfg0.win 1).blk t).view.set ↔ ∀ a : Fin 2, win0_1.index t a * S256x1000.size a ≤ (i a).val
      ∧ (i a).val < win0_1.index t a * S256x1000.size a + S256x1000.size a := by
  show i ∈ ((View.whole main_v0).slice (win0_1.rect t)).set ↔ _
  rw [View.set_slice_whole, Rect.mem_set_unit]
  exact Iff.rfl

/-- Every row of the result is in some point's block: row r in the block of point r / 256. -/
theorem cover (i : S65536x1000.Idx) :
    ∃ t : Fin cfg0.N, (cfg0.win 1).flush t = true ∧ i ∈ ((cfg0.win 1).blk t).view.set := by
  have hi0 : (i 0).val < 65536 := (i 0).isLt
  have hi1 : (i 1).val < 1000 := (i 1).isLt
  have hN : cfg0.N = 256 := N_0
  obtain ⟨t, ht⟩ : ∃ t : Fin cfg0.N, t.val = (i 0).val / 256 := ⟨⟨(i 0).val / 256, by omega⟩, rfl⟩
  obtain ⟨-, -, -, e3, e4⟩ := index_facts t
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    rw [e3, ht]; omega
  | ⟨1, _⟩ =>
    show win0_1.index t (1 : Fin 2) * 1000 ≤ (i 1).val ∧ (i 1).val < win0_1.index t (1 : Fin 2) * 1000 + 1000
    rw [e4]; omega

/-- The result array after the run: the fused result of the evidence array as launched. -/
theorem final (c : Dev nD) : (dats m 0 c).arrAt 1 cfg0.N = fusedOut (m ((c : Thread nD τ).loc main_arg0)) :=
  (dats m 0 c).arrAt_eq_of_cover 1 (fusedOut (V m c main_arg0)) (fun t _ => flushed_eq m c t) cover

/-- The run, read: the result array at the fused result of the argument, the argument unchanged. -/
theorem run : θ_run defs (onTc (τ := τ) (main (F := Ideal))) ⟨m, fun _ => 0, ρ⟩ fun r => ∀ c : Dev nD,
      r.2.mem ((c : Thread nD τ).loc main_v0) = fusedOut (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRows.lean ====
/-
  The reference program, row by row.

  Every stage of the reference is read at a sample n (and a class k where it has one) as a function of the two
  evidence rows of that sample: the parameters, their strengths, the belief and uncertainty masses, the conflict
  mass, the mixed term, the combined parameters with both quotients by one minus the conflict mass, their
  maximum over the classes, and the softmax. The reference's first row (its alpha1) is evidence slice 1, its
  second slice 0.
-/
import proofs.«423927_j9543417332439_3_alg».proof.Proof.Gen.ReferenceIdeal.Read
import proofs.«423927_j9543417332439_3_alg».proof.Proof.EvidenceSpec
import proofs.«423927_j9543417332439_3_alg».proof.Proof.LibRowRead

noncomputable section

namespace Cert.ReferenceIdeal.Rows

open Cert.ReferenceIdeal Cert.ReferenceIdeal.Gen Cert.ReferenceIdeal.Read
open Idealize.ShloMosaic Idealize.ShloMosaic.ValueIdx Cert.Evidence Cert.RowRead

/-! ## Where each stage reads its operand: the composed index maps at coordinates -/

/-- Row-major position n·1000 + k splits back into (n, k). -/
theorem sliceA_idx (n : Fin 65536) (k : Fin 1000) : idx_main_v0 (idx_main_v1 (ix2 n k)) = ix3 n (0 : Fin 2) k :=
  funext fun a => Fin.ext (by
    have hk := k.isLt
    match a with
    | ⟨0, _⟩ => show (n.val * 1000 + k.val) / 1000 = n.val; omega
    | ⟨1, _⟩ => rfl
    | ⟨2, _⟩ => show (n.val * 1000 + k.val) % 1000 = k.val; omega)

theorem sliceB_idx (n : Fin 65536) (k : Fin 1000) : idx_main_v2 (idx_main_v3 (ix2 n k)) = ix3 n (1 : Fin 2) k :=
  funext fun a => Fin.ext (by
    have hk := k.isLt
    match a with
    | ⟨0, _⟩ => show (n.val * 1000 + k.val) / 1000 = n.val; omega
    | ⟨1, _⟩ => rfl
    | ⟨2, _⟩ => show (n.val * 1000 + k.val) % 1000 = k.val; omega)

theorem lift8 (n : Fin 65536) (k : Fin 1000) : idx_main_v8 (ix1 n) k = ix2 n k :=
  funext fun a => Fin.ext (by match a with | ⟨0, _⟩ => rfl | ⟨1, _⟩ => rfl)
theorem lift10 (n : Fin 65536) (k : Fin 1000) : idx_main_v10 (ix1 n) k = ix2 n k :=
  funext fun a => Fin.ext (by match a with | ⟨0, _⟩ => rfl | ⟨1, _⟩ => rfl)
theorem lift24 (n : Fin 65536) (k : Fin 1000) : idx_main_v24 (ix1 n) k = ix2 n k :=
  funext fun a => Fin.ext (by match a with | ⟨0, _⟩ => rfl | ⟨1, _⟩ => rfl)
theorem lift25 (n : Fin 65536) (k : Fin 1000) : idx_main_v25 (ix1 n) k = ix2 n k :=
  funext fun a => Fin.ext (by match a with | ⟨0, _⟩ => rfl | ⟨1, _⟩ => rfl)
theorem lift28 (n : Fin 65536) (k : Fin 1000) : idx_main_v28 (ix1 n) k = ix2 n k :=
  funext fun a => Fin.ext (by match a with | ⟨0, _⟩ => rfl | ⟨1, _⟩ => rfl)
theorem lift57 (n : Fin 65536) (k : Fin 1000) : idx_main_v57 (ix1 n) k = ix2 n k :=
  funext fun a => Fin.ext (by match a with | ⟨0, _⟩ => rfl | ⟨1, _⟩ => rfl)
theorem row9 (n : Fin 65536) : idx_main_v9 (ix2 n (0 : Fin 1)) = ix1 n :=
  funext fun a => Fin.ext (by match a with | ⟨0, _⟩ => rfl)
theorem row11 (n : Fin 65536) : idx_main_v11 (ix2 n (0 : Fin 1)) = ix1 n :=
  funext fun a => Fin.ext (by match a with | ⟨0, _⟩ => rfl)
theorem row32 (n : Fin 65536) : idx_main_v32 (ix2 n (0 : Fin 1)) = ix1 n :=
  funext fun a => Fin.ext (by match a with | ⟨0, _⟩ => rfl)
theorem row53 (n : Fin 65536) : idx_main_v53 (ix2 n (0 : Fin 1)) = ix1 n :=
  funext fun a => Fin.ext (by match a with | ⟨0, _⟩ => rfl)
theorem row58 (n : Fin 65536) : idx_main_v58 (ix2 n (0 : Fin 1)) = ix1 n :=
  funext fun a => Fin.ext (by match a with | ⟨0, _⟩ => rfl)
theorem col14 (n : Fin 65536) (k : Fin 1000) : idx_main_v14 (ix2 n k) = ix2 n (0 : Fin 1) :=
  funext fun a => Fin.ext (by match a with | ⟨0, _⟩ => rfl | ⟨1, _⟩ => rfl)
theorem col18 (n : Fin 65536) (k : Fin 1000) : idx_main_v18 (ix2 n k) = ix2 n (0 : Fin 1) :=
  funext fun a => Fin.ext (by match a with | ⟨0, _⟩ => rfl | ⟨1, _⟩ => rfl)
theorem col34 (n : Fin 65536) (k : Fin 1000) : idx_main_v34 (ix2 n k) = ix2 n (0 : Fin 1) :=
  funext fun a => Fin.ext (by match a with | ⟨0, _⟩ => rfl | ⟨1, _⟩ => rfl)
theorem col37 (n : Fin 65536) (k : Fin 1000) : idx_main_v37 (ix2 n k) = ix2 n (0 : Fin 1) :=
  funext fun a => Fin.ext (by match a with | ⟨0, _⟩ => rfl | ⟨1, _⟩ => rfl)
theorem col40 (n : Fin 65536) (k : Fin 1000) : idx_main_v40 (ix2 n k) = ix2 n (0 : Fin 1) :=
  funext fun a => Fin.ext (by match a with | ⟨0, _⟩ => rfl | ⟨1, _⟩ => rfl)
theorem col46 (n : Fin 65536) (k : Fin 1000) : idx_main_v46 (ix2 n k) = ix2 n (0 : Fin 1) :=
  funext fun a => Fin.ext (by match a with | ⟨0, _⟩ => rfl | ⟨1, _⟩ => rfl)
theorem col54 (n : Fin 65536) (k : Fin 1000) : idx_main_v54 (ix2 n k) = ix2 n (0 : Fin 1) :=
  funext fun a => Fin.ext (by match a with | ⟨0, _⟩ => rfl | ⟨1, _⟩ => rfl)
theorem col59 (n : Fin 65536) (k : Fin 1000) : idx_main_v59 (ix2 n k) = ix2 n (0 : Fin 1) :=
  funext fun a => Fin.ext (by match a with | ⟨0, _⟩ => rfl | ⟨1, _⟩ => rfl)

/-! ## The stages -/

section Stages

variable (x : (⟨S65536x2x1000, .f32⟩ : BufTy).Contents (Elt Ideal)) (n : Fin 65536)

theorem evA (k : Fin 1000) : val_main_v1 (F := Ideal) x (ix2 n k) = slab x 0 n k := by
  rw [val_main_v1_apply, val_main_v0_apply, sliceA_idx]; rfl

theorem evB (k : Fin 1000) : val_main_v3 (F := Ideal) x (ix2 n k) = slab x 1 n k := by
  rw [val_main_v3_apply, val_main_v2_apply, sliceB_idx]; rfl

theorem paramB (k : Fin 1000) : val_main_v5 (F := Ideal) x (ix2 n k) = slab x 1 n k + 1 := by
  rw [val_main_v5_apply, evB, val_main_v4_apply, val_main_cst_apply, Ideal.ofBits_def, word_one]; rfl

theorem paramA (k : Fin 1000) : val_main_v7 (F := Ideal) x (ix2 n k) = slab x 0 n k + 1 := by
  rw [val_main_v7_apply, evA, val_main_v6_apply, val_main_cst_0_apply, Ideal.ofBits_def, word_one]; rfl

theorem strengthB : val_main_v8 (F := Ideal) x (ix1 n) = strength (slab x 1 n) := by
  rw [val_main_v8_apply, val_main_cst_1_apply, Ideal.ofBits_def, word_zero, zero_add]
  unfold strength
  exact Finset.sum_congr rfl fun k _ => by rw [lift8, paramB]

theorem strengthA : val_main_v10 (F := Ideal) x (ix1 n) = strength (slab x 0 n) := by
  rw [val_main_v10_apply, val_main_cst_2_apply, Ideal.ofBits_def, word_zero, zero_add]
  unfold strength
  exact Finset.sum_congr rfl fun k _ => by rw [lift10, paramA]

theorem keepSB : val_main_v9 (F := Ideal) x (ix2 n (0 : Fin 1)) = strength (slab x 1 n) := by
  rw [val_main_v9_apply, row9, strengthB]

theorem keepSA : val_main_v11 (F := Ideal) x (ix2 n (0 : Fin 1)) = strength (slab x 0 n) := by
  rw [val_main_v11_apply, row11, strengthA]

theorem beliefB (k : Fin 1000) : val_main_v15 (F := Ideal) x (ix2 n k) = belief (slab x 1 n) k := by
  rw [val_main_v15_apply, val_main_v13_apply, paramB, val_main_v12_apply, val_main_cst_3_apply, val_main_v14_apply,
    col14, keepSB, Ideal.ofBits_def, word_one]; rfl

theorem beliefA (k : Fin 1000) : val_main_v19 (F := Ideal) x (ix2 n k) = belief (slab x 0 n) k := by
  rw [val_main_v19_apply, val_main_v17_apply, paramA, val_main_v16_apply, val_main_cst_4_apply, val_main_v18_apply,
    col18, keepSA, Ideal.ofBits_def, word_one]; rfl

theorem uncB : val_main_v21 (F := Ideal) x (ix2 n (0 : Fin 1)) = unc classes (slab x 1 n) := by
  rw [val_main_v21_apply, val_main_v20_apply, val_main_cst_5_apply, keepSB, Ideal.ofBits_def, word_thousand]; rfl

theorem uncA : val_main_v23 (F := Ideal) x (ix2 n (0 : Fin 1)) = unc classes (slab x 0 n) := by
  rw [val_main_v23_apply, val_main_v22_apply, val_main_cst_6_apply, keepSA, Ideal.ofBits_def, word_thousand]; rfl

theorem conflictBA : val_main_v29 (F := Ideal) x (ix1 n) = conflict (slab x 1 n) (slab x 0 n) := by
  simp only [val_main_v29_apply, val_main_v26_apply, val_main_v24_apply, val_main_v25_apply, val_main_v28_apply,
    val_main_v27_apply, val_main_cst_7_apply, val_main_cst_8_apply, val_main_cst_9_apply, Ideal.ofBits_def, word_zero,
    zero_add, lift24, lift25, lift28, beliefB, beliefA]
  rfl

theorem keepDen : val_main_v32 (F := Ideal) x (ix2 n (0 : Fin 1)) = 1 - conflict (slab x 1 n) (slab x 0 n) := by
  rw [val_main_v32_apply, row32, val_main_v31_apply, val_main_v30_apply, val_main_cst_10_apply, conflictBA,
    Ideal.ofBits_def, word_one]; rfl

theorem mixBA (k : Fin 1000) : val_main_v39 (F := Ideal) x (ix2 n k) = mix classes (slab x 1 n) (slab x 0 n) k := by
  simp only [val_main_v39_apply, val_main_v36_apply, val_main_v33_apply, val_main_v35_apply, val_main_v38_apply,
    val_main_v34_apply, val_main_v37_apply, col34, col37, beliefB, beliefA, uncA, uncB]
  rfl

theorem alphaRef (k : Fin 1000) :
    val_main_v49 (F := Ideal) x (ix2 n k) = alphaDS classes (slab x 0 n) (slab x 1 n) k := by
  simp only [val_main_v49_apply, val_main_v47_apply, val_main_v48_apply, val_main_cst_12_apply, val_main_v41_apply,
    val_main_v40_apply, col40, val_main_v46_apply, col46, val_main_v45_apply, val_main_v44_apply,
    val_main_cst_11_apply, val_main_v43_apply, val_main_v42_apply, mixBA, keepDen, uncA, uncB, Ideal.ofBits_def,
    word_one, word_thousand]
  rfl

theorem maxRef : val_main_v52 (F := Ideal) x (ix1 n) = rowMax (alphaDS classes (slab x 0 n) (slab x 1 n)) := by
  rw [val_main_v52_apply, val_main_v51_apply, val_main_cst_14_apply, Ideal.ofBits_def, word_neg_inf]
  unfold val_main_v50
  rw [hostRowMax_apply _ _ _ (by decide) _ n, val_main_cst_13_apply, Ideal.ofBits_def, word_neg_inf]
  simp only [alphaRef]
  exact max_bot_left _

theorem outRef (j : Fin 1000) :
    val_main_v60 (F := Ideal) x (ix2 n j) = softmax (alphaDS classes (slab x 0 n) (slab x 1 n)) j := by
  simp only [val_main_v60_apply, val_main_v59_apply, col59, val_main_v58_apply, row58, val_main_v57_apply,
    val_main_cst_15_apply, Ideal.ofBits_def, word_zero, zero_add, lift57, val_main_v56_apply, val_main_v55_apply,
    val_main_v54_apply, col54, val_main_v53_apply, row53, maxRef, alphaRef]
  rfl

end Stages

/-- The reference's result is the specification with both quotients formed. -/
theorem result_eq (x : (⟨S65536x2x1000, .f32⟩ : BufTy).Contents (Elt Ideal)) : val_main_v60 (F := Ideal) x = dsOut x := by
  funext i
  rw [eq_ix2 i]
  exact outRef x (i 0) (i 1)

end Cert.ReferenceIdeal.Rows

end
-- ==== Proof.EvidencePre.lean ====
/-
  What the precondition says of the evidence array: every entry is a non-negative real number.

  The precondition is the conjunction of two tests over all entries: |x| < +∞ and x ≥ 0. An entry of the
  extended reals that passes both is neither infinity and is not negative.
-/
import proofs.«423927_j9543417332439_3_alg».proof.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.EvidencePre

open Idealize.ShloMosaic Idealize.ShloMosaic.ValueIdx Cert.Pre_finite_inputs

variable [Cert.Pre_finite_inputs.Facts]

instance : Subsingleton S_.Idx := ⟨fun a b => funext fun d => d.elim0⟩

/-- A comparison's one-bit answer is 1 exactly when the comparison holds. -/
theorem ofBool_decide_eq_one {p : Prop} [Decidable p] : BitVec.ofBool (decide p) = 1#1 ↔ p := by
  by_cases hp : p <;> simp [hp]

/-- An extended real whose absolute value is below +∞ and which is at least 0 is a non-negative real. -/
theorem real_of_tests (v : EReal) (hfin : max v (-v) < ⊤) (hnn : 0 ≤ v) : ∃ r : ℝ, 0 ≤ r ∧ v = (r : EReal) := by
  induction v using EReal.rec with
  | bot => exact absurd hnn (by simp)
  | top => exact absurd hfin (by simp)
  | coe r => exact ⟨r, by exact_mod_cast hnn, rfl⟩

/-- Under the precondition every entry of the argument is a non-negative real. -/
theorem entry_nonneg_real (x : FVec Ideal S65536x2x1000 .f32)
    (h : Cert.Pre_finite_inputs.fn (F := Ideal) x = fun _ => 1#1) (i : S65536x2x1000.Idx) :
    ∃ r : ℝ, 0 ≤ r ∧ x i = (r : EReal) := by
  have h0 := congrFun h ix0
  dsimp only [Cert.Pre_finite_inputs.fn] at h0
  obtain ⟨hfin, hnn⟩ := IntOp.andi_eq_one.1 h0
  have e1 := Host.reduce_andi_all _ _ _ _ _ hfin i
  have e2 := Host.reduce_andi_all _ _ _ _ _ hnn i
  rw [cmpf_apply, broadcastInDim_apply _ Facts.bcast_S_S65536x2x1000 _ i (fun a => a.elim0) (fun a => a.elim0),
    constant_apply, Ideal.cmpf_def] at e1 e2
  have top : Ideal.ofBits .f32 0x7F800000#32 = ⊤ := by simp [Ideal.ofBits, Ideal.ieee]
  rw [top] at e1
  rw [Ideal.ofBits_zero_f32] at e2
  have t1 : max (x i) (-(x i)) < ⊤ := ofBool_decide_eq_one.1 e1
  have t2 : (0 : EReal) ≤ x i := ofBool_decide_eq_one.1 e2
  exact real_of_tests (x i) t1 t2

end Cert.EvidencePre

end
-- ==== Proof.lean ====
/-
  Two rows of non-negative class evidence per sample are combined by the Dempster–Shafer rule for Dirichlet
  opinions, and the combined parameters are passed through a softmax over the classes.

  With S = Σ (e + 1) the strength of a row, b = e / S its belief masses and u = C / S its uncertainty mass (C = 1000
  classes), the reference forms the conflict mass K = (Σ b₁)(Σ b₂) - Σ b₁ b₂, divides the mixed term
  b₁ b₂ + b₁ u₂ + b₂ u₁ and the product u₁ u₂ by 1 - K, and multiplies the first quotient by C over the second.
  The kernel multiplies the mixed term by C / (u₁ u₂) at once. The factor 1 - K cancels where it is not zero; for
  non-negative finite evidence every belief mass is non-negative and each row's masses sum to (S - C) / S < 1, so
  K < 1 and all the quantities are real numbers, where the two expressions agree by field algebra. The precondition
  gives exactly that of every entry. Both programs then subtract the row maximum, exponentiate and divide by the
  row sum: the same softmax of equal rows.

  The kernel reads the [65536, 2, 1000] array in 256 blocks of 256 samples; each block's result depends on its own
  samples only, and the blocks tile the result. The reference names slice 1 its first row and slice 0 its second;
  the combination is symmetric up to the order of sums and products.
-/
import proofs.«423927_j9543417332439_3_alg».proof.Defs
import proofs.«423927_j9543417332439_3_alg».proof.Proof.Gen.Kernel
import proofs.«423927_j9543417332439_3_alg».proof.Proof.Gen.Kernel.Frame
import proofs.«423927_j9543417332439_3_alg».proof.Proof.Gen.KernelIdeal
import proofs.«423927_j9543417332439_3_alg».proof.Proof.Gen.KernelIdeal.Frame
import proofs.«423927_j9543417332439_3_alg».proof.Proof.Gen.KernelIdeal.Value
import proofs.«423927_j9543417332439_3_alg».proof.Proof.Gen.ReferenceIdeal
import proofs.«423927_j9543417332439_3_alg».proof.Proof.Gen.ReferenceIdeal.Run
import proofs.«423927_j9543417332439_3_alg».proof.Proof.Gen.ReferenceIdeal.Read
import proofs.«423927_j9543417332439_3_alg».proof.Proof.Gen.Pre_finite_inputs
import proofs.«423927_j9543417332439_3_alg».proof.Proof.KernelWhole
import proofs.«423927_j9543417332439_3_alg».proof.Proof.RefRows
import proofs.«423927_j9543417332439_3_alg».proof.Proof.EvidencePre

noncomputable section

namespace Cert.Proof

open Idealize.ShloMosaic Idealize.SL.Sem

/-- The kernel as printed runs and leaves its argument as it was. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its argument as it was: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- On non-negative finite evidence the kernel's result array and the reference's are one function of the
    argument: the softmax of the combined parameters, the factor one minus the conflict mass cancelled. -/
theorem algebraic : Cert.algebraic_KernelIdeal_ReferenceIdeal := by
  intro m ρ m' ρ' hpre hagree
  refine ⟨fun c => Cert.Evidence.fusedOut (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.ReferenceIdeal.Rows.result_eq, hagree c]
  exact Cert.Evidence.dsOut_eq_fusedOut _ fun i => Cert.EvidencePre.entry_nonneg_real _ (hpre c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
